-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048 : Shape := ⟨2, ![4, 2048]⟩
abbrev S_ : Shape := ⟨0, ![]⟩
abbrev S4 : Shape := ⟨1, ![4]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x2048 : S_.BroadcastsInDim S4x2048 (![] : Fin 0 → Fin S4x2048.rank)
  reducesTo_S4x2048_S_d0_1 : S4x2048.ReducesTo [0, 1] S_
  reducesTo_S4x2048_S4_d1 : S4x2048.ReducesTo [1] S4
  reducesTo_S4_S_d0 : S4.ReducesTo [0] S_

variable [Facts]

def fn_part1 {F : FTy → Type} [FloatOps F] (main_arg3 : IVec S4x2048 32) (main_v13 : IVec S_ 1) (main_v15 : IVec S4x2048 1) (main_c_5 : IVec S_ 32) : IVec S_ 1 :=
  let main_v16 : IVec S4x2048 32 := broadcastInDim S4x2048 ![] bcast_S_S4x2048 main_c_5
  let main_v17 : IVec S4x2048 1 := cmpi .eq main_arg3 main_v16
  let main_v18 : IVec S4x2048 1 := ori main_v15 main_v17
  let main_c_6 : IVec S_ 1 := constantI S_ 1 1#1
  let main_v19 : IVec S_ 1 := (fun x v => Host.reduce IntOp.andi x v reducesTo_S4x2048_S_d0_1 h_S_) main_v18 main_c_6
  let main_v20 : IVec S_ 1 := andi main_v13 main_v19
  let main_c_7 : IVec S_ 32 := constantI S_ 32 1#32
  let main_v21 : IVec S4x2048 32 := broadcastInDim S4x2048 ![] bcast_S_S4x2048 main_c_7
  let main_v22 : IVec S4x2048 1 := cmpi .eq main_arg3 main_v21
  let main_c_8 : IVec S_ 1 := constantI S_ 1 0#1
  let main_v23 : IVec S4 1 := (fun x v => Host.reduce IntOp.ori x v reducesTo_S4x2048_S4_d1 h_S_) main_v22 main_c_8
  let main_c_9 : IVec S_ 1 := constantI S_ 1 1#1
  let main_v24 : IVec S_ 1 := (fun x v => Host.reduce IntOp.andi x v reducesTo_S4_S_d0 h_S_) main_v23 main_c_9
  let main_v25 : IVec S_ 1 := andi main_v20 main_v24
  main_v25

def fn {F : FTy → Type} [FloatOps F] (main_arg0 : FVec F S4x16x2048x64 .f32) (main_arg1 : FVec F S4x16x2048x64 .f32) (main_arg2 : FVec F S4x16x2048x64 .f32) (main_arg3 : IVec S4x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_c_4 : IVec S_ 32 := constantI S_ 32 0#32
  let main_v14 : IVec S4x2048 32 := broadcastInDim S4x2048 ![] bcast_S_S4x2048 main_c_4
  let main_v15 : IVec S4x2048 1 := cmpi .eq main_arg3 main_v14
  let main_c_5 : IVec S_ 32 := constantI S_ 32 1#32
  fn_part1 (F := F) main_arg3 main_v13 main_v15 main_c_5
-- ==== Kernel.lean ====
abbrev S4x16x2048x64 : Shape := ⟨4, ![4, 16, 2048, 64]⟩
abbrev S4x2048 : Shape := ⟨2, ![4, 2048]⟩
abbrev S64x2048x64 : Shape := ⟨3, ![64, 2048, 64]⟩
abbrev S4x1x2048x1 : Shape := ⟨4, ![4, 1, 2048, 1]⟩
abbrev S4x16x2048x1 : Shape := ⟨4, ![4, 16, 2048, 1]⟩
abbrev S4x16x2048x65 : Shape := ⟨4, ![4, 16, 2048, 65]⟩
abbrev S64x2048x65 : Shape := ⟨3, ![64, 2048, 65]⟩
abbrev S1x1024x64 : Shape := ⟨3, ![1, 1024, 64]⟩
abbrev S1x2048x64 : Shape := ⟨3, ![1, 2048, 64]⟩
abbrev S1x2048x65 : Shape := ⟨3, ![1, 2048, 65]⟩
abbrev S1024x64 : Shape := ⟨2, ![1024, 64]⟩
abbrev S2048x64 : Shape := ⟨2, ![2048, 64]⟩
abbrev S2048x65 : Shape := ⟨2, ![2048, 65]⟩
abbrev S1024x2048 : Shape := ⟨2, ![1024, 2048]⟩
abbrev S1024 : Shape := ⟨1, ![1024]⟩
abbrev S1024x1 : Shape := ⟨2, ![1024, 1]⟩
abbrev S1024x65 : Shape := ⟨2, ![1024, 65]⟩

abbrev nBuf : Space → Nat
  | .hbm => 16
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S64x2048x64, .f32⟩
  | .hbm, ⟨5, _⟩ => ⟨S64x2048x64, .f32⟩
  | .hbm, ⟨6, _⟩ => ⟨S4x2048, .f32⟩
  | .hbm, ⟨7, _⟩ => ⟨S4x1x2048x1, .f32⟩
  | .hbm, ⟨8, _⟩ => ⟨S4x16x2048x64, .f32⟩
  | .hbm, ⟨9, _⟩ => ⟨S4x16x2048x64, .f32⟩
  | .hbm, ⟨10, _⟩ => ⟨S4x16x2048x1, .f32⟩
  | .hbm, ⟨11, _⟩ => ⟨S4x16x2048x65, .f32⟩
  | .hbm, ⟨12, _⟩ => ⟨S64x2048x65, .f32⟩
  | .hbm, ⟨13, _⟩ => ⟨S64x2048x65, .bf16⟩
  | .hbm, ⟨14, _⟩ => ⟨S64x2048x64, .f32⟩
  | .hbm, ⟨15, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x65, .bf16⟩
  | .local _ .vmem, ⟨5, _⟩ => ⟨S1x2048x65, .bf16⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  bcast_S4x2048_S4x1x2048x1_0_2 : S4x2048.BroadcastsInDim S4x1x2048x1 (![0, 2] : Fin 2 → Fin S4x1x2048x1.rank)
  bcast_S4x1x2048x1_S4x16x2048x64_0_1_2_3 : S4x1x2048x1.BroadcastsInDim S4x16x2048x64 (![0, 1, 2, 3] : Fin 4 → Fin S4x16x2048x64.rank)
  bcast_S4x1x2048x1_S4x16x2048x1_0_1_2_3 : S4x1x2048x1.BroadcastsInDim S4x16x2048x1 (![0, 1, 2, 3] : Fin 4 → Fin S4x16x2048x1.rank)
  concatenates_S4x16x2048x64_S4x16x2048x1_S4x16x2048x65_d3 : Shape.Concatenates [S4x16x2048x64, S4x16x2048x1] S4x16x2048x65 3
  shapeCasts_S4x16x2048x65_S64x2048x65 : S4x16x2048x65.ShapeCasts S64x2048x65
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  reduces_S1024x2048_S1024 : S1024x2048.Reduces [1] S1024
  shapeCasts_S1024_S1024x1 : S1024.ShapeCasts S1024x1
  broadcasts_S1024x1_S1024x2048 : S1024x1.Broadcasts S1024x2048
  slices_S1024x65_o0_64_S1024x1 : S1024x65.Slices ![0, 64] S1024x1
  slices_S1024x65_o0_0_S1024x64 : S1024x65.Slices ![0, 0] S1024x64
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x65_S1024x65_1_0_0_1_n_n_wf : DotDims.WF S1024x2048 S2048x65 S1024x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x65.size a ≤ S64x2048x65.size a
  hwx0_2 : ∀ i : grid0.Coords, EltTy.bits .bf16 = 32 ∨ (Rect.block (s := S64x2048x65) S1x2048x65.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x65_S1024x65_1_0_0_1_n_n : DotDims S1024x2048 S2048x65 S1024x65 where
  lhsContracting := [1]
  rhsContracting := [0]
  lhsNonContracting := [0]
  rhsNonContracting := [1]
  lhsBatch := []
  rhsBatch := []
  wf := dot_S1024x2048_S2048x65_S1024x65_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x2048 : Shape := ⟨2, ![4, 2048]⟩
abbrev S4x16x2048x2048 : Shape := ⟨4, ![4, 16, 2048, 2048]⟩
abbrev S_ : Shape := ⟨0, ![]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x1x1x2048, .i32⟩
  | .hbm, ⟨9, _⟩ => ⟨S_, .i32⟩
  | .hbm, ⟨10, _⟩ => ⟨S4x1x1x2048, .i32⟩
  | .hbm, ⟨11, _⟩ => ⟨S4x1x1x2048, .i1⟩
  | .hbm, ⟨12, _⟩ => ⟨S_, .f32⟩
  | .hbm, ⟨13, _⟩ => ⟨S_, .f32⟩
  | .hbm, ⟨14, _⟩ => ⟨S4x16x2048x2048, .i1⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Masked softmax attention, row by row, on the extended reals.

  For one query row (batch b, head h, query position r) and one output column e, with scores s_j over the
  2048 keys, values v_j and key weights w_j:

    * the augmented-value form:  ( Σ_j exp(s_j - M) · (v_j · w_j) ) / ( Σ_j exp(s_j - M) · w_j ),  M the maximum of ALL scores,
      the weights being the integer mask read as numbers, and the scale 1/8 folded into the queries;
    * the textbook form:  Σ_j ( exp(x_j - M') / Σ_j' exp(x_j' - M') ) · v_j,  x_j = -∞ where the mask is 0 and the scaled
      score elsewhere, M' the maximum of the x_j.

  When every entry of q, k, v is a real number, the mask takes only the values 0 and 1, and every batch row keeps at
  least one key, both are the real number ( Σ_{kept j} e^{s_j} v_j ) / ( Σ_{kept j} e^{s_j} ): a softmax does not
  depend on the shift subtracted inside the exponential, a key of weight 0 contributes nothing to either sum, and
  exp(-∞) = 0.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of q, k, v and of the result: batch, head, position, feature. -/
abbrev A4 : Shape := ⟨4, ![4, 16, 2048, 64]⟩
/-- The shape of the mask: batch, key position. -/
abbrev M2 : Shape := ⟨2, ![4, 2048]⟩

/-- The score of query r against key j with the scale applied to the query's entries first. -/
def scoreK (q k : A4.Idx → EReal) (b : Fin 4) (h : Fin 16) (r j : Fin 2048) : EReal :=
  ∑ d : Fin 64, (q (ix4 b h r d) * Ideal.ofBits .f32 0x3E000000#32) * k (ix4 b h j d)

/-- The same score with the scale applied to the finished inner product. -/
def scoreR (q k : A4.Idx → EReal) (b : Fin 4) (h : Fin 16) (r j : Fin 2048) : EReal :=
  (∑ d : Fin 64, q (ix4 b h r d) * k (ix4 b h j d)) * Ideal.ofBits .f32 0x3E000000#32

/-- Key j's weight in batch b: the mask's integer read as a number. -/
def wt (mask : M2.Idx → BitVec 32) (b : Fin 4) (j : Fin 2048) : EReal :=
  (((mask (ix2 b j)).toInt : ℝ) : EReal)

/-- A score with the mask applied as a fill: -∞ at a key whose mask entry is 0. -/
def fill (mask : M2.Idx → BitVec 32) (b : Fin 4) (j : Fin 2048) (s : EReal) : EReal :=
  if mask (ix2 b j) = 0#32 then ⊥ else s

/-- The maximum of a row, from -∞. -/
def rowMax (s : Fin 2048 → EReal) : EReal := (Finset.univ : Finset (Fin 2048)).fold max ⊥ s

/-- The augmented-value form of one output entry. -/
def rowK (s w v : Fin 2048 → EReal) : EReal :=
  Ideal.div (∑ j : Fin 2048, Ideal.exp (s j - rowMax s) * (v j * w j)) (∑ j : Fin 2048, Ideal.exp (s j - rowMax s) * w j)

/-- The textbook form of one output entry. -/
def rowR (x v : Fin 2048 → EReal) : EReal :=
  ∑ j : Fin 2048, Ideal.div (Ideal.exp (x j - rowMax x)) (∑ j' : Fin 2048, Ideal.exp (x j' - rowMax x)) * v j

/-- Entry (b, h, r, e) of the result, augmented-value form. -/
def gk (q k v : A4.Idx → EReal) (mask : M2.Idx → BitVec 32) (b : Fin 4) (h : Fin 16) (r : Fin 2048) (e : Fin 64) : EReal :=
  rowK (fun j => scoreK q k b h r j) (fun j => wt mask b j) (fun j => v (ix4 b h j e))

/-- Entry (b, h, r, e) of the result, textbook form. -/
def gr (q k v : A4.Idx → EReal) (mask : M2.Idx → BitVec 32) (b : Fin 4) (h : Fin 16) (r : Fin 2048) (e : Fin 64) : EReal :=
  rowR (fun j => fill mask b j (scoreR q k b h r j)) (fun j => v (ix4 b h j e))

/-- The whole result, augmented-value form. -/
def Gk (q k v : A4.Idx → EReal) (mask : M2.Idx → BitVec 32) : A4.Idx → EReal :=
  fun i => gk q k v mask (i 0) (i 1) (i 2) (i 3)

/-- The whole result, textbook form. -/
def Gr (q k v : A4.Idx → EReal) (mask : M2.Idx → BitVec 32) : A4.Idx → EReal :=
  fun i => gr q k v mask (i 0) (i 1) (i 2) (i 3)

/-- The word 0xFF800000 is -∞. -/
theorem ofBits_neg_inf : Ideal.ofBits .f32 0xFF800000#32 = ⊥ := by
  simp [Ideal.ofBits, Ideal.ieee]

/-- The word 0x3E000000 is 1/8. -/
theorem ofBits_eighth : Ideal.ofBits .f32 0x3E000000#32 = ((1 / 8 : ℝ) : EReal) := by
  simp [Ideal.ofBits, Ideal.ieee, -EReal.coe_mul]; norm_num

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row with no entry +∞ and at least one entry above -∞ is a real number. -/
theorem rowMax_real (x : Fin 2048 → EReal) (htop : ∀ j, x j ≠ ⊤) (j₀ : Fin 2048) (hj₀ : x j₀ ≠ ⊥) :
    ∃ μ : ℝ, rowMax x = (μ : EReal) := by
  have h1 : rowMax x ≠ ⊤ := by
    rw [rowMax]; apply ne_of_lt; rw [Finset.fold_max_lt]
    exact ⟨bot_lt_top, fun j _ => lt_top_iff_ne_top.mpr (htop j)⟩
  have h2 : rowMax x ≠ ⊥ := by
    rw [rowMax]; apply ne_of_gt; rw [Finset.lt_fold_max]
    exact Or.inr ⟨j₀, Finset.mem_univ _, bot_lt_iff_ne_bot.mpr hj₀⟩
  exact ⟨(rowMax x).toReal, (EReal.coe_toReal h1 h2).symm⟩

/-- A quotient of two exponential sums does not depend on a common shift of the exponents:
    e^{σ - μ} = e^{-μ} · e^{σ}, and the factor e^{-μ} ≠ 0 cancels. -/
theorem shift_quot {ι : Type*} (s : Finset ι) (σ a w : ι → ℝ) (μ : ℝ) :
    (∑ j ∈ s, Real.exp (σ j - μ) * a j) / (∑ j ∈ s, Real.exp (σ j - μ) * w j)
      = (∑ j ∈ s, Real.exp (σ j) * a j) / (∑ j ∈ s, Real.exp (σ j) * w j) := by
  have h : ∀ c : ι → ℝ,
      ∑ j ∈ s, Real.exp (σ j - μ) * c j = Real.exp (-μ) * ∑ j ∈ s, Real.exp (σ j) * c j := by
    intro c
    rw [Finset.mul_sum]
    apply Finset.sum_congr rfl
    intro j _
    rw [sub_eq_add_neg, Real.exp_add]; ring
  rw [h a, h w, mul_div_mul_left _ _ (Real.exp_pos _).ne']

/-- A sum of exponentials against nonnegative weights, one of which is 1, is positive. -/
theorem denom_pos {ι : Type*} (s : Finset ι) (σ w : ι → ℝ) (μ : ℝ) (hw : ∀ j, 0 ≤ w j)
    (j₀ : ι) (hj₀ : j₀ ∈ s) (h1 : w j₀ = 1) : 0 < ∑ j ∈ s, Real.exp (σ j - μ) * w j := by
  apply Finset.sum_pos' (fun j _ => mul_nonneg (Real.exp_pos _).le (hw j))
  exact ⟨j₀, hj₀, by rw [h1, mul_one]; exact Real.exp_pos _⟩

/-- The augmented-value form on real scores, real values and nonnegative real weights with a key of weight 1. -/
theorem rowK_real (σ ν ω : Fin 2048 → ℝ) (hω : ∀ j, 0 ≤ ω j) (j₀ : Fin 2048) (hj₀ : ω j₀ = 1) :
    rowK (fun j => (σ j : EReal)) (fun j => (ω j : EReal)) (fun j => (ν j : EReal))
      = (((∑ j, Real.exp (σ j) * (ν j * ω j)) / (∑ j, Real.exp (σ j) * ω j) : ℝ) : EReal) := by
  obtain ⟨μ, hμ⟩ := rowMax_real (fun j => (σ j : EReal)) (fun j => EReal.coe_ne_top _) j₀ (EReal.coe_ne_bot _)
  have hD := denom_pos Finset.univ σ ω μ hω j₀ (Finset.mem_univ _) hj₀
  unfold rowK
  rw [hμ]
  simp only [← EReal.coe_sub, Ideal.exp_coe, ← EReal.coe_mul, ← coe_sum]
  rw [Ideal.div_coe hD.ne', ← EReal.coe_mul, mul_one_div, shift_quot]

/-- The exponential of a filled score less a real shift: 0 at a dropped key, e^{σ - μ} at a kept one. -/
theorem exp_fill (p : Prop) [Decidable p] (σ μ : ℝ) :
    Ideal.exp ((if p then ⊥ else (σ : EReal)) - (μ : EReal))
      = ((Real.exp (σ - μ) * (if p then 0 else 1) : ℝ) : EReal) := by
  by_cases hp : p
  · rw [if_pos hp, if_pos hp, EReal.bot_sub, Ideal.exp_bot, mul_zero, EReal.coe_zero]
  · rw [if_neg hp, if_neg hp, ← EReal.coe_sub, Ideal.exp_coe, mul_one]

/-- The textbook form on real scores filled with -∞ at the dropped keys, with a kept key. -/
theorem rowR_real (p : Fin 2048 → Prop) [DecidablePred p] (σ ν : Fin 2048 → ℝ) (j₀ : Fin 2048) (hj₀ : ¬ p j₀) :
    rowR (fun j => if p j then ⊥ else (σ j : EReal)) (fun j => (ν j : EReal))
      = (((∑ j, Real.exp (σ j) * (ν j * (if p j then 0 else 1)))
            / (∑ j, Real.exp (σ j) * (if p j then 0 else 1)) : ℝ) : EReal) := by
  obtain ⟨μ, hμ⟩ := rowMax_real (fun j => if p j then ⊥ else (σ j : EReal))
    (fun j => by by_cases hp : p j
                 · rw [if_pos hp]; exact bot_ne_top
                 · rw [if_neg hp]; exact EReal.coe_ne_top _)
    j₀ (by rw [if_neg hj₀]; exact EReal.coe_ne_bot _)
  have hD := denom_pos Finset.univ σ (fun j => if p j then (0 : ℝ) else 1) μ
    (fun j => by by_cases hp : p j
                 · rw [if_pos hp]
                 · rw [if_neg hp]; exact zero_le_one)
    j₀ (Finset.mem_univ _) (if_neg hj₀)
  unfold rowR
  rw [hμ]
  simp only [exp_fill, ← coe_sum]
  simp only [Ideal.div_coe hD.ne', ← EReal.coe_mul, ← coe_sum]
  rw [← shift_quot Finset.univ σ _ _ μ, Finset.sum_div]
  congr 1
  apply Finset.sum_congr rfl
  intro j _
  ring

/-- With real entries the two scores of a row are one family of real numbers: the scale 1/8 moves out of the
    inner product. -/
theorem score_real (q k : A4.Idx → EReal)
    (hq : ∀ i, ∃ x : ℝ, q i = (x : EReal)) (hk : ∀ i, ∃ x : ℝ, k i = (x : EReal))
    (b : Fin 4) (h : Fin 16) (r : Fin 2048) :
    ∃ σ : Fin 2048 → ℝ, (∀ j, scoreK q k b h r j = (σ j : EReal)) ∧ ∀ j, scoreR q k b h r j = (σ j : EReal) := by
  choose qr hqr using hq
  choose kr hkr using hk
  refine ⟨fun j => (∑ d : Fin 64, qr (ix4 b h r d) * kr (ix4 b h j d)) * (1 / 8), fun j => ?_, fun j => ?_⟩
  · unfold scoreK
    simp only [hqr, hkr, ofBits_eighth, ← EReal.coe_mul, ← coe_sum]
    congr 1
    rw [Finset.sum_mul]
    apply Finset.sum_congr rfl
    intro d _
    ring
  · unfold scoreR
    simp only [hqr, hkr, ofBits_eighth, ← EReal.coe_mul, ← coe_sum]

/-- A mask entry that is 0 or 1 weighs 0 or 1. -/
theorem wt_real (mask : M2.Idx → BitVec 32) (h01 : ∀ i, mask i = 0#32 ∨ mask i = 1#32) (b : Fin 4) (j : Fin 2048) :
    wt mask b j = ((if mask (ix2 b j) = 0#32 then 0 else 1 : ℝ) : EReal) := by
  unfold wt
  rcases h01 (ix2 b j) with h0 | h1
  · rw [h0, if_pos rfl]
    have : (0#32).toInt = 0 := by decide
    rw [this, Int.cast_zero]
  · rw [h1, if_neg (by decide)]
    have : (1#32).toInt = 1 := by decide
    rw [this, Int.cast_one]

/-- One entry: the two forms agree. -/
theorem gk_eq_gr (q k v : A4.Idx → EReal) (mask : M2.Idx → BitVec 32)
    (hq : ∀ i, ∃ x : ℝ, q i = (x : EReal)) (hk : ∀ i, ∃ x : ℝ, k i = (x : EReal)) (hv : ∀ i, ∃ x : ℝ, v i = (x : EReal))
    (h01 : ∀ i, mask i = 0#32 ∨ mask i = 1#32) (hkept : ∀ b : Fin 4, ∃ j : Fin 2048, mask (ix2 b j) = 1#32)
    (b : Fin 4) (h : Fin 16) (r : Fin 2048) (e : Fin 64) :
    gk q k v mask b h r e = gr q k v mask b h r e := by
  obtain ⟨σ, hσK, hσR⟩ := score_real q k hq hk b h r
  choose vr hvr using hv
  obtain ⟨j₀, hj₀⟩ := hkept b
  have hne : ¬ mask (ix2 b j₀) = 0#32 := by rw [hj₀]; decide
  have e1 : (fun j => scoreK q k b h r j) = fun j => (σ j : EReal) := funext hσK
  have e2 : (fun j => fill mask b j (scoreR q k b h r j))
      = fun j => if mask (ix2 b j) = 0#32 then ⊥ else (σ j : EReal) := funext fun j => by rw [fill, hσR]
  have e3 : (fun j => wt mask b j) = fun j => ((if mask (ix2 b j) = 0#32 then 0 else 1 : ℝ) : EReal) :=
    funext (wt_real mask h01 b)
  have e4 : (fun j => v (ix4 b h j e)) = fun j => ((vr (ix4 b h j e) : ℝ) : EReal) := funext fun j => hvr _
  unfold gk gr
  rw [e1, e2, e3, e4]
  rw [rowK_real σ _ _ (fun j => by by_cases hp : mask (ix2 b j) = 0#32
                                   · rw [if_pos hp]
                                   · rw [if_neg hp]; exact zero_le_one) j₀ (if_neg hne),
    rowR_real (fun j => mask (ix2 b j) = 0#32) σ _ j₀ hne]

/-- Under real entries, a 0/1 mask and a kept key in every batch row, the two forms are one function. -/
theorem Gk_eq_Gr (q k v : A4.Idx → EReal) (mask : M2.Idx → BitVec 32)
    (hq : ∀ i, ∃ x : ℝ, q i = (x : EReal)) (hk : ∀ i, ∃ x : ℝ, k i = (x : EReal)) (hv : ∀ i, ∃ x : ℝ, v i = (x : EReal))
    (h01 : ∀ i, mask i = 0#32 ∨ mask i = 1#32) (hkept : ∀ b : Fin 4, ∃ j : Fin 2048, mask (ix2 b j) = 1#32) :
    Gk q k v mask = Gr q k v mask := by
  funext i
  exact gk_eq_gr q k v mask hq hk hv h01 hkept (i 0) (i 1) (i 2) (i 3)

end Cert.Attn

end
-- ==== Proof.PreRead.lean ====
/-
  What the precondition says of the inputs, read back from its printed predicate: every entry of q, k and v is a real
  number (its absolute value is below +∞), every mask entry is 0 or 1, and every batch row of the mask has a 1.
-/
import proofs.«424999_j26216480374997_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.Attn.PreRead

open Idealize.ShloMosaic Idealize.ShloMosaic.ValueIdx

variable [Cert.Pre_finite_inputs.Facts]

/-- The rank-zero shape has one index. -/
instance : Subsingleton Cert.Pre_finite_inputs.S_.Idx := ⟨fun _ _ => funext fun d => d.elim0⟩

/-! ### Elements -/

/-- The pattern 0x7F800000 denotes +∞. -/
theorem ofBits_inf : Ideal.ofBits .f32 0x7F800000#32 = (⊤ : EReal) := by simp [Ideal.ofBits, Ideal.ieee]

/-- A value whose absolute value compares below +∞ is a real number: neither infinity's absolute value is below +∞. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change BitVec.ofBool (decide (max (x : EReal) (-(x : EReal)) < Ideal.ofBits .f32 0x7F800000#32)) = 1#1 at h
  rw [ofBits_inf] at h
  have hlt : max (x : EReal) (-(x : EReal)) < ⊤ := of_decide_eq_true ((StableHlo.Predicate.ofBool_eq_one_iff _).1 h)
  induction x using EReal.rec with
  | bot => simp at hlt
  | top => simp at hlt
  | coe r => exact ⟨r, rfl⟩

/-- A word that equals 0 or equals 1, by the two comparisons' disjunction. -/
theorem zero_or_one_of_ori (m : BitVec 32) (h : IntOp.ori (IntOp.cmpi .eq m 0#32) (IntOp.cmpi .eq m 1#32) = 1#1) :
    m = 0#32 ∨ m = 1#32 := by
  rcases IntOp.ori_eq_one.1 h with h | h
  · exact Or.inl (StableHlo.Predicate.cmpi_eq_iff.1 h)
  · exact Or.inr (StableHlo.Predicate.cmpi_eq_iff.1 h)

/-! ### A reduction by `or` that is 1 -/

/-- A left fold by `or` over `i1` words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from 0 that is 1 at `j` had a 1 at some operand index that reduces into `j`. -/
theorem reduce_ori_exists {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [hinit] at h1
    exact absurd h1 (by decide)
  · exact ⟨i, of_decide_eq_true (List.mem_filter.1 hi).2, hx⟩

/-- The precondition's five readings. -/
theorem of_pre (a0 a1 a2 : FVec Ideal Cert.Pre_finite_inputs.S4x16x2048x64 .f32) (a3 : IVec Cert.Pre_finite_inputs.S4x2048 32)
    (h : Cert.Pre_finite_inputs.fn (F := Ideal) a0 a1 a2 a3 = fun _ => 1#1) :
    (∀ i, ∃ x : ℝ, a0 i = (x : EReal)) ∧ (∀ i, ∃ x : ℝ, a1 i = (x : EReal)) ∧ (∀ i, ∃ x : ℝ, a2 i = (x : EReal))
      ∧ (∀ i, a3 i = 0#32 ∨ a3 i = 1#32) ∧ (∀ b : Fin 4, ∃ j : Fin 2048, a3 (ix2 b j) = 1#32) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun b => ?_⟩
  · exact real_of_abs_lt_inf (a0 i) (Host.reduce_andi_all _ _ _ _ _ h1 i)
  · exact real_of_abs_lt_inf (a1 i) (Host.reduce_andi_all _ _ _ _ _ h2 i)
  · exact real_of_abs_lt_inf (a2 i) (Host.reduce_andi_all _ _ _ _ _ h3 i)
  · exact zero_or_one_of_ori (a3 i) (Host.reduce_andi_all _ _ _ _ _ h4 i)
  · have hb := Host.reduce_andi_all _ _ _ _ _ h5 (ix1 b)
    obtain ⟨i, hd, hx⟩ := reduce_ori_exists _ _ _ _ rfl _ hb
    have hx1 : a3 i = 1#32 := StableHlo.Predicate.cmpi_eq_iff.1 hx
    have hv : (i 0).val = b.val := by
      rw [← Shape.ReducesTo.drop_apply_val_of_eq Cert.Pre_finite_inputs.Facts.reducesTo_S4x2048_S4_d1 i 0 0, hd]
    have hi0 : i 0 = b := Fin.ext hv
    subst hi0
    exact ⟨i 1, (congrArg a3 (eq_ix2 i)).symm.trans hx1⟩

end Cert.Attn.PreRead

end
-- ==== Proof.RefValue.lean ====
/-
  The reference program's result, stage by stage, is the textbook form of masked softmax attention.
-/
import proofs.«424999_j26216480374997_3_alg».proof.Proof.Gen.ReferenceIdeal.Read
import proofs.«424999_j26216480374997_3_alg».proof.Proof.Spec
import Idealize.ShloMosaic.PureOps.Reduce

noncomputable section

namespace Cert.Attn.RefValue

open Idealize.ShloMosaic Idealize.ShloMosaic.ValueIdx Cert.ReferenceIdeal Cert.ReferenceIdeal.Gen Cert.ReferenceIdeal.Read

/-! Each stage of the reference is read at an index given by its coordinates: batch b, head h, query position r,
    key position j. Throughout, the row of masked scores is  j ↦ fill mask b j (scoreR q k b h r j). -/

section Stages

variable (x0 x1 : (⟨S4x16x2048x64, .f32⟩ : BufTy).Contents (Elt Ideal)) (x3 : (⟨S4x2048, .i32⟩ : BufTy).Contents (Elt Ideal))

/-- The scaled score: the inner product of query row r and key row j, times the scale. -/
theorem v2_at (b : Fin 4) (h : Fin 16) (r j : Fin 2048) :
    val_main_v2 (F := Ideal) x0 x1 (ix4 b h r j) = Cert.Attn.scoreR x0 x1 b h r j := by
  rw [val_main_v2_apply, val_main_v0_apply, val_main_v1_apply, val_main_cst_apply, Ideal.mulf_def, Ideal.ofBits_def]
  have el : ∀ k : Fin 64, lidx_main_v0 (ix4 b h r j) k = ix4 b h r k := fun k =>
    funext fun a => by match a with | ⟨0, _⟩ => rfl | ⟨1, _⟩ => rfl | ⟨2, _⟩ => rfl | ⟨3, _⟩ => rfl
  have er : ∀ k : Fin 64, ridx_main_v0 (ix4 b h r j) k = ix4 b h j k := fun k =>
    funext fun a => by match a with | ⟨0, _⟩ => rfl | ⟨1, _⟩ => rfl | ⟨2, _⟩ => rfl | ⟨3, _⟩ => rfl
  simp only [el, er]
  rfl

/-- Comparing a word with zero for equality gives the bit 1 at zero. -/
theorem cmpi_eq_zero_one {a : BitVec 32} (ha : a = 0#32) : IntOp.cmpi .eq a 0#32 = 1#1 := by
  subst ha; rfl

/-- Comparing a word with zero for equality gives the bit 0 away from zero. -/
theorem cmpi_eq_zero_zero {a : BitVec 32} (ha : ¬ a = 0#32) : IntOp.cmpi .eq a 0#32 = 0#1 := by
  unfold IntOp.cmpi
  have : (a == 0#32) = false := beq_eq_false_iff_ne.2 ha
  rw [this]; rfl

/-- The masked score: -∞ where the key's mask entry is 0, the scaled score elsewhere. The mask entry read is
    (b, j): the mask is broadcast over heads and query positions. -/
theorem v6_at (b : Fin 4) (h : Fin 16) (r j : Fin 2048) :
    val_main_v6 (F := Ideal) x0 x1 x3 (ix4 b h r j) = Cert.Attn.fill x3 b j (Cert.Attn.scoreR x0 x1 b h r j) := by
  rw [val_main_v6_apply, val_main_call0_v1_apply, val_main_v5_apply, val_main_v3_apply, val_main_v4_apply,
    val_main_c_apply, val_main_call0_v2_apply, val_main_call0_v0_apply, val_main_cst_0_apply, v2_at,
    Ideal.ofBits_def, Cert.Attn.ofBits_neg_inf]
  have ei : idx_main_v3 (idx_main_call0_v1 (ix4 b h r j)) = ix2 b j :=
    funext fun a => by match a with | ⟨0, _⟩ => rfl | ⟨1, _⟩ => rfl
  rw [ei]
  unfold Cert.Attn.fill
  by_cases hm : x3 (ix2 b j) = 0#32
  · rw [if_pos hm, cmpi_eq_zero_one hm, select_one]
  · rw [if_neg hm, cmpi_eq_zero_zero hm, select_zero]

/-- Inserting the key coordinate j into the row index (b, h, r) on the last axis gives (b, h, r, j). -/
theorem lift_at (hr : S4x16x2048x2048.Reduces [3] S4x16x2048) (b : Fin 4) (h : Fin 16) (r j : Fin 2048) :
    hr.lift (ix3 b h r) j = ix4 b h r j :=
  funext fun a => Fin.ext (by match a with | ⟨0, _⟩ => rfl | ⟨1, _⟩ => rfl | ⟨2, _⟩ => rfl | ⟨3, _⟩ => rfl)

/-- The maximum-reduction over the key axis is the row's maximum from -∞: the fold of a commutative, associative
    operation over one axis is the fold over that axis's coordinates, and the initial value's word is -∞. -/
theorem v7_at (b : Fin 4) (h : Fin 16) (r : Fin 2048) :
    val_main_v7 (F := Ideal) x0 x1 x3 (ix3 b h r)
      = Cert.Attn.rowMax (fun j => Cert.Attn.fill x3 b j (Cert.Attn.scoreR x0 x1 b h r j)) := by
  unfold val_main_v7
  have hr : S4x16x2048x2048.Reduces [3] S4x16x2048 := by decide
  rw [Host.reduce_eq_fold_single FloatOps.maximumf _ _ reducesTo_S4x16x2048x2048_S4x16x2048_d3 hr h_S_ (ix3 b h r)]
  have e0 : val_main_cst_1 (F := Ideal) (Shape.Idx.first h_S_) = ⊥ := by
    rw [val_main_cst_1_apply, Ideal.ofBits_def, Cert.Attn.ofBits_neg_inf]
  have ef : (val_main_v6 (F := Ideal) x0 x1 x3 ∘ hr.lift (ix3 b h r))
      = fun j => Cert.Attn.fill x3 b j (Cert.Attn.scoreR x0 x1 b h r j) := by
    refine funext fun (j : Fin 2048) => ?_
    exact (congrArg (val_main_v6 (F := Ideal) x0 x1 x3) (lift_at hr b h r j)).trans (v6_at x0 x1 x3 b h r j)
  rw [e0, ef]
  rfl

/-- The stage the reference subtracts: the maximum of -∞ and the row's maximum, which is the row's maximum. -/
theorem v9_at (b : Fin 4) (h : Fin 16) (r : Fin 2048) :
    val_main_v9 (F := Ideal) x0 x1 x3 (ix3 b h r)
      = Cert.Attn.rowMax (fun j => Cert.Attn.fill x3 b j (Cert.Attn.scoreR x0 x1 b h r j)) := by
  rw [val_main_v9_apply, val_main_v8_apply, val_main_cst_2_apply, v7_at, Ideal.maximumf_def, Ideal.ofBits_def,
    Cert.Attn.ofBits_neg_inf]
  exact max_eq_right bot_le

/-- The row's maximum, broadcast back over the keys. -/
theorem v11_at (b : Fin 4) (h : Fin 16) (r j : Fin 2048) :
    val_main_v11 (F := Ideal) x0 x1 x3 (ix4 b h r j)
      = Cert.Attn.rowMax (fun j => Cert.Attn.fill x3 b j (Cert.Attn.scoreR x0 x1 b h r j)) := by
  rw [val_main_v11_apply, val_main_v10_apply]
  have ei : idx_main_v10 (idx_main_v11 (ix4 b h r j)) = ix3 b h r :=
    funext fun a => by match a with | ⟨0, _⟩ => rfl | ⟨1, _⟩ => rfl | ⟨2, _⟩ => rfl
  rw [ei, v9_at]

/-- The numerator's term: the exponential of the masked score less the row's maximum. -/
theorem v13_at (b : Fin 4) (h : Fin 16) (r j : Fin 2048) :
    val_main_v13 (F := Ideal) x0 x1 x3 (ix4 b h r j)
      = Ideal.exp (Cert.Attn.fill x3 b j (Cert.Attn.scoreR x0 x1 b h r j)
          - Cert.Attn.rowMax (fun j => Cert.Attn.fill x3 b j (Cert.Attn.scoreR x0 x1 b h r j))) := by
  rw [val_main_v13_apply, val_main_v12_apply, v6_at, v11_at, Ideal.hostUnary_exp_def, Ideal.subf_def]

/-- The denominator: zero plus the sum of the exponentials over the keys. -/
theorem v14_at (b : Fin 4) (h : Fin 16) (r : Fin 2048) :
    val_main_v14 (F := Ideal) x0 x1 x3 (ix3 b h r)
      = ∑ j' : Fin 2048, Ideal.exp (Cert.Attn.fill x3 b j' (Cert.Attn.scoreR x0 x1 b h r j')
          - Cert.Attn.rowMax (fun j => Cert.Attn.fill x3 b j (Cert.Attn.scoreR x0 x1 b h r j))) := by
  rw [val_main_v14_apply, val_main_cst_3_apply, Ideal.ofBits_def, Ideal.ofBits_zero_f32, zero_add]
  refine Finset.sum_congr rfl fun k _ => ?_
  have ei : idx_main_v14 (ix3 b h r) k = ix4 b h r k :=
    funext fun a => by match a with | ⟨0, _⟩ => rfl | ⟨1, _⟩ => rfl | ⟨2, _⟩ => rfl | ⟨3, _⟩ => rfl
  rw [ei, v13_at]

/-- The denominator, broadcast back over the keys. -/
theorem v16_at (b : Fin 4) (h : Fin 16) (r j : Fin 2048) :
    val_main_v16 (F := Ideal) x0 x1 x3 (ix4 b h r j)
      = ∑ j' : Fin 2048, Ideal.exp (Cert.Attn.fill x3 b j' (Cert.Attn.scoreR x0 x1 b h r j')
          - Cert.Attn.rowMax (fun j => Cert.Attn.fill x3 b j (Cert.Attn.scoreR x0 x1 b h r j))) := by
  rw [val_main_v16_apply, val_main_v15_apply]
  have ei : idx_main_v15 (idx_main_v16 (ix4 b h r j)) = ix3 b h r :=
    funext fun a => by match a with | ⟨0, _⟩ => rfl | ⟨1, _⟩ => rfl | ⟨2, _⟩ => rfl
  rw [ei, v14_at]

/-- The softmax weight of key j in row (b, h, r): the numerator's term over the denominator. -/
theorem v17_at (b : Fin 4) (h : Fin 16) (r j : Fin 2048) :
    val_main_v17 (F := Ideal) x0 x1 x3 (ix4 b h r j)
      = Ideal.div
          (Ideal.exp (Cert.Attn.fill x3 b j (Cert.Attn.scoreR x0 x1 b h r j)
            - Cert.Attn.rowMax (fun j => Cert.Attn.fill x3 b j (Cert.Attn.scoreR x0 x1 b h r j))))
          (∑ j' : Fin 2048, Ideal.exp (Cert.Attn.fill x3 b j' (Cert.Attn.scoreR x0 x1 b h r j')
            - Cert.Attn.rowMax (fun j => Cert.Attn.fill x3 b j (Cert.Attn.scoreR x0 x1 b h r j)))) := by
  rw [val_main_v17_apply, v13_at, v16_at, Ideal.hostDivf_def]

end Stages

/-- The reference's result array is the textbook form of the arguments, index by index. -/
theorem ref_eq_Gr (x0 x1 x2 : (⟨S4x16x2048x64, .f32⟩ : BufTy).Contents (Elt Ideal)) (x3 : (⟨S4x2048, .i32⟩ : BufTy).Contents (Elt Ideal)) :
    val_main_v18 (F := Ideal) x0 x1 x2 x3 = Cert.Attn.Gr x0 x1 x2 x3 := by
  funext i
  obtain ⟨b, h, r, e, rfl⟩ : ∃ (b : Fin 4) (h : Fin 16) (r : Fin 2048) (e : Fin 64), i = ix4 b h r e :=
    ⟨i 0, i 1, i 2, i 3, eq_ix4 i⟩
  show _ = Cert.Attn.gr x0 x1 x2 x3 b h r e
  unfold Cert.Attn.gr Cert.Attn.rowR
  rw [val_main_v18_apply]
  refine Finset.sum_congr rfl fun k _ => ?_
  have el : lidx_main_v18 (ix4 b h r e) k = ix4 b h r k :=
    funext fun a => by match a with | ⟨0, _⟩ => rfl | ⟨1, _⟩ => rfl | ⟨2, _⟩ => rfl | ⟨3, _⟩ => rfl
  have er : ridx_main_v18 (ix4 b h r e) k = ix4 b h k e :=
    funext fun a => by match a with | ⟨0, _⟩ => rfl | ⟨1, _⟩ => rfl | ⟨2, _⟩ => rfl | ⟨3, _⟩ => rfl
  rw [el, er, v17_at]

end Cert.Attn.RefValue

end
-- ==== Proof.KernelPayload.lean ====
/-
  The kernel body's one store, read at an entry. For a query block x0 : [1, 1024, 64], a key block x1 : [1, 2048, 64]
  and an augmented value block x2 : [1, 2048, 65] (columns 0..63 the weighted values, column 64 the weights), entry
  (0, r, e) of what the body stores is

      ( Σ_j exp(s_j - M) · x2[0, j, e] ) / ( Σ_j exp(s_j - M) · x2[0, j, 64] ),
      s_j = Σ_d (x0[0, r, d] · 1/8) · x1[0, j, d],   M = max_j s_j :

  the first product contracts the feature axis of both operands, the row maximum is a fold of max from -∞, the second
  product contracts the key axis, its last column is the denominator, and every change of float format is the identity.
-/
import proofs.«424999_j26216480374997_3_alg».proof.Proof.Gen.KernelIdeal.Skeleton
import proofs.«424999_j26216480374997_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Payload

open Idealize.ShloMosaic Idealize.ShloMosaic.ValueIdx Cert.KernelIdeal Cert.KernelIdeal.Gen

/-! ## The two products' operand indices, axis by axis -/

theorem lhsS_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhsS_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhsS_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhsS_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem lhsP_0 (i : S1024x65.Idx) (q : dot_S1024x2048_S2048x65_S1024x65_1_0_0_1_n_n.contr.Idx) :
    (dot_S1024x2048_S2048x65_S1024x65_1_0_0_1_n_n.lhsIdx i q 0).val = (i 0).val := by
  unfold DotDims.lhsIdx
  rw [dif_neg (show ¬(0 : Fin S1024x2048.rank) ∈ dot_S1024x2048_S2048x65_S1024x65_1_0_0_1_n_n.lhsBatch by decide), dif_pos (show (0 : Fin S1024x2048.rank) ∈ dot_S1024x2048_S2048x65_S1024x65_1_0_0_1_n_n.lhsNonContracting by decide)]
  rfl
theorem lhsP_1 (i : S1024x65.Idx) (q : dot_S1024x2048_S2048x65_S1024x65_1_0_0_1_n_n.contr.Idx) :
    (dot_S1024x2048_S2048x65_S1024x65_1_0_0_1_n_n.lhsIdx i q 1).val = (q ⟨0, by decide⟩).val :=
  dot_S1024x2048_S2048x65_S1024x65_1_0_0_1_n_n.lhsIdx_val_of_single rfl i q
theorem rhsP_0 (i : S1024x65.Idx) (q : dot_S1024x2048_S2048x65_S1024x65_1_0_0_1_n_n.contr.Idx) :
    (dot_S1024x2048_S2048x65_S1024x65_1_0_0_1_n_n.rhsIdx i q 0).val = (q ⟨0, by decide⟩).val :=
  dot_S1024x2048_S2048x65_S1024x65_1_0_0_1_n_n.rhsIdx_val_of_single rfl i q
theorem rhsP_1 (i : S1024x65.Idx) (q : dot_S1024x2048_S2048x65_S1024x65_1_0_0_1_n_n.contr.Idx) :
    (dot_S1024x2048_S2048x65_S1024x65_1_0_0_1_n_n.rhsIdx i q 1).val = (i 1).val := by
  unfold DotDims.rhsIdx
  rw [dif_neg (show ¬(1 : Fin S2048x65.rank) ∈ dot_S1024x2048_S2048x65_S1024x65_1_0_0_1_n_n.rhsBatch by decide), dif_pos (show (1 : Fin S2048x65.rank) ∈ dot_S1024x2048_S2048x65_S1024x65_1_0_0_1_n_n.rhsNonContracting by decide)]
  rfl

/-! ## The two products at an entry -/

/-- The score product into a zero accumulator: entry (r, j) is the sum over the feature axis of query row r times key row j. -/
theorem scores_at (a : FVec Ideal S1024x64 .bf16) (b : FVec Ideal S2048x64 .bf16) (r : Fin 1024) (j : Fin 2048) :
    matmul dot_S1024x64_S2048x64_S1024x2048_1_1_0_0_n_n none a b (constant S1024x2048 .f32 0x00000000#32) (ix2 r j)
      = ∑ d : Fin 64, a (ix2 r d) * b (ix2 j d) := by
  refine (Ideal.matmul_constant_zero_apply dot_S1024x64_S2048x64_S1024x2048_1_1_0_0_n_n none a b (ix2 r j)).trans ?_
  rw [← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 r j) ((contrEquiv1 dot_S1024x64_S2048x64_S1024x2048_1_1_0_0_n_n 64 rfl rfl).symm d) = ix2 r d := funext fun c => Fin.ext (by
    match c with
    | ⟨0, _⟩ => exact lhsS_0 _ _
    | ⟨1, _⟩ => exact (lhsS_1 _ _).trans hk)
  have er : dot_S1024x64_S2048x64_S1024x2048_1_1_0_0_n_n.rhsIdx (ix2 r j) ((contrEquiv1 dot_S1024x64_S2048x64_S1024x2048_1_1_0_0_n_n 64 rfl rfl).symm d) = ix2 j d := funext fun c => Fin.ext (by
    match c with
    | ⟨0, _⟩ => exact rhsS_0 _ _
    | ⟨1, _⟩ => exact (rhsS_1 _ _).trans hk)
  rw [el, er]

/-- The second product into a zero accumulator: entry (r, c) is the sum over the keys of the weight of key j in row r
    times column c of the augmented value block at key j. -/
theorem pv_at (p : FVec Ideal S1024x2048 .bf16) (va : FVec Ideal S2048x65 .bf16) (r : Fin 1024) (c : Fin 65) :
    matmul dot_S1024x2048_S2048x65_S1024x65_1_0_0_1_n_n none p va (constant S1024x65 .f32 0x00000000#32) (ix2 r c)
      = ∑ j : Fin 2048, p (ix2 r j) * va (ix2 j c) := by
  refine (Ideal.matmul_constant_zero_apply dot_S1024x2048_S2048x65_S1024x65_1_0_0_1_n_n none p va (ix2 r c)).trans ?_
  rw [← Equiv.sum_comp (contrEquiv1 dot_S1024x2048_S2048x65_S1024x65_1_0_0_1_n_n 2048 rfl rfl).symm]
  refine Finset.sum_congr rfl fun j _ => ?_
  have hk := contrEquiv1_symm_val dot_S1024x2048_S2048x65_S1024x65_1_0_0_1_n_n 2048 rfl rfl j
  have el : dot_S1024x2048_S2048x65_S1024x65_1_0_0_1_n_n.lhsIdx (ix2 r c) ((contrEquiv1 dot_S1024x2048_S2048x65_S1024x65_1_0_0_1_n_n 2048 rfl rfl).symm j) = ix2 r j := funext fun a => Fin.ext (by
    match a with
    | ⟨0, _⟩ => exact lhsP_0 _ _
    | ⟨1, _⟩ => exact (lhsP_1 _ _).trans hk)
  have er : dot_S1024x2048_S2048x65_S1024x65_1_0_0_1_n_n.rhsIdx (ix2 r c) ((contrEquiv1 dot_S1024x2048_S2048x65_S1024x65_1_0_0_1_n_n 2048 rfl rfl).symm j) = ix2 j c := funext fun a => Fin.ext (by
    match a with
    | ⟨0, _⟩ => exact (rhsP_0 _ _).trans hk
    | ⟨1, _⟩ => exact rhsP_1 _ _)
  rw [el, er]

/-! ## The layout operations of the body at an entry -/

/-- A vector of 1024 entries viewed as a column reads, at (r, 0), its entry r. -/
theorem col_cast (v : FVec Ideal S1024 .f32) (r : Fin 1024) :
    shapeCast S1024x1 v shapeCasts_S1024_S1024x1 (ix2 r (0 : Fin 1)) = v (ix1 r) :=
  shapeCast_apply v shapeCasts_S1024_S1024x1 _ _ (by
    rw [Shape.rowMajor_val_one, Shape.rowMajor_val_two]
    show r.val = r.val * 1 + 0
    omega)

/-- A column laid across 2048 columns reads, at (r, j), the column at (r, 0). -/
theorem bcast_keys (v : FVec Ideal S1024x1 .f32) (r : Fin 1024) (j : Fin 2048) :
    broadcastTo S1024x2048 v broadcasts_S1024x1_S1024x2048 (ix2 r j) = v (ix2 r (0 : Fin 1)) :=
  broadcastTo_apply v broadcasts_S1024x1_S1024x2048 _ _ (fun a => match a with
    | ⟨0, _⟩ => by show r.val = if (1024 : Nat) = 1 then 0 else r.val; rw [if_neg (by decide)]
    | ⟨1, _⟩ => by show 0 = if (1 : Nat) = 1 then 0 else j.val; rw [if_pos rfl])

/-- A column laid across 64 columns reads, at (r, e), the column at (r, 0). -/
theorem bcast_feat (v : FVec Ideal S1024x1 .f32) (r : Fin 1024) (e : Fin 64) :
    broadcastTo S1024x64 v broadcasts_S1024x1_S1024x64 (ix2 r e) = v (ix2 r (0 : Fin 1)) :=
  broadcastTo_apply v broadcasts_S1024x1_S1024x64 _ _ (fun a => match a with
    | ⟨0, _⟩ => by show r.val = if (1024 : Nat) = 1 then 0 else r.val; rw [if_neg (by decide)]
    | ⟨1, _⟩ => by show 0 = if (1 : Nat) = 1 then 0 else e.val; rw [if_pos rfl])

/-- The last column of a [1024, 65] array, as a column. -/
theorem slice_den (v : FVec Ideal S1024x65 .f32) (r : Fin 1024) :
    extractStridedSlice S1024x1 ![0, 64] v slices_S1024x65_o0_64_S1024x1 (ix2 r (0 : Fin 1)) = v (ix2 r (⟨64, by decide⟩ : Fin 65)) :=
  extractStridedSlice_apply _ v slices_S1024x65_o0_64_S1024x1 _ _ (fun a => match a with
    | ⟨0, _⟩ => by show r.val = 0 + r.val; omega
    | ⟨1, _⟩ => by show 64 = 64 + 0; rfl)

/-- The first 64 columns of a [1024, 65] array. -/
theorem slice_num (v : FVec Ideal S1024x65 .f32) (r : Fin 1024) (e : Fin 64) :
    extractStridedSlice S1024x64 ![0, 0] v slices_S1024x65_o0_0_S1024x64 (ix2 r e) = v (ix2 r (⟨e.val, by omega⟩ : Fin 65)) :=
  extractStridedSlice_apply _ v slices_S1024x65_o0_0_S1024x64 _ _ (fun a => match a with
    | ⟨0, _⟩ => by show r.val = 0 + r.val; omega
    | ⟨1, _⟩ => by show e.val = 0 + e.val; omega)

/-- A row's maximum: the fold of max from -∞ over the row's 2048 entries. -/
theorem rowmax_at (s : FVec Ideal S1024x2048 .f32) (hφ : FKind.Formats .f32)
    (hacc : (0xFF800000#32 : BitVec 32) = 0xFF800000#32) (r : Fin 1024) :
    multiReduction .maximumf [1] S1024 s 0xFF800000#32 reduces_S1024x2048_S1024 hφ hacc (ix1 r)
      = Cert.Attn.rowMax (fun j => s (ix2 r j)) := by
  refine (Ideal.multiReduction_maximumf_single s 0xFF800000#32 reduces_S1024x2048_S1024 hφ hacc (ix1 r)).trans ?_
  unfold Cert.Attn.rowMax
  rw [Ideal.ofBits_def, Cert.Attn.ofBits_neg_inf]
  exact congrArg (fun f => (Finset.univ : Finset (Fin 2048)).fold max ⊥ f)
    (funext fun k => congrArg s (funext fun a => Fin.ext (by match a with | ⟨0, _⟩ => rfl | ⟨1, _⟩ => rfl)))

/-! ## The body's store at an entry -/

/-- One output entry from its row of scores, its column of the augmented values, and the weights. -/
def payRow (s a w : Fin 2048 → EReal) : EReal :=
  Ideal.div (∑ j : Fin 2048, Ideal.exp (s j - Cert.Attn.rowMax s) * a j) (∑ j : Fin 2048, Ideal.exp (s j - Cert.Attn.rowMax s) * w j)

/-- The augmented-value form is this with the column the weighted values. -/
theorem rowK_eq (s w v : Fin 2048 → EReal) : Cert.Attn.rowK s w v = payRow s (fun j => v j * w j) w := rfl

/-- The block's scaled score of query row r against key j. -/
def blkScore (x0 : Vec Ideal S1x1024x64 .f32) (x1 : Vec Ideal S1x2048x64 .f32) (r : Fin 1024) (j : Fin 2048) : EReal :=
  ∑ d : Fin 64, (x0 (ix3 (0 : Fin 1) r d) * Ideal.ofBits .f32 0x3E000000#32) * x1 (ix3 (0 : Fin 1) j d)

/-- The weight of key j in row r, from the row's scores: exp of the score less the row's maximum. -/
theorem weight_of_scores (s : FVec Ideal S1024x2048 .f32) (hφ : FKind.Formats .f32)
    (hacc : (0xFF800000#32 : BitVec 32) = 0xFF800000#32) (r : Fin 1024) (j : Fin 2048) :
    (truncf .bf16 (exp (subf s (broadcastTo S1024x2048 (shapeCast S1024x1 (multiReduction .maximumf [1] S1024 s 0xFF800000#32
        reduces_S1024x2048_S1024 hφ hacc) shapeCasts_S1024_S1024x1) broadcasts_S1024x1_S1024x2048))) bitsLt_bf16_f32
      : FVec Ideal S1024x2048 .bf16) (ix2 r j)
      = Ideal.exp (s (ix2 r j) - Cert.Attn.rowMax (fun j' => s (ix2 r j'))) := by
  show Ideal.exp (s (ix2 r j) - broadcastTo S1024x2048 _ broadcasts_S1024x1_S1024x2048 (ix2 r j)) = _
  refine congrArg (fun z => Ideal.exp (s (ix2 r j) - z)) ?_
  exact (bcast_keys _ r j).trans ((col_cast _ r).trans (rowmax_at s hφ hacc r))

/-- The block's score matrix: the scaled query block times the key block, contracted over the features. -/
abbrev blkScores (x0 : Vec Ideal S1x1024x64 .f32) (x1 : Vec Ideal S1x2048x64 .f32) : FVec Ideal S1024x2048 .f32 :=
  matmul dot_S1024x64_S2048x64_S1024x2048_1_1_0_0_n_n none
    (truncf .bf16 (mulf (shapeCast S1024x64 x0 shapeCasts_S1x1024x64_S1024x64) (broadcast S1024x64 (Scalar.ofBits .f32 0x3E000000#32 : Ideal .f32))) bitsLt_bf16_f32)
    (truncf .bf16 (shapeCast S2048x64 x1 shapeCasts_S1x2048x64_S2048x64) bitsLt_bf16_f32) (constant S1024x2048 .f32 0x00000000#32)

/-- Its entry (r, j) is the scaled score of query row r against key j. -/
theorem blkScores_at (x0 : Vec Ideal S1x1024x64 .f32) (x1 : Vec Ideal S1x2048x64 .f32) (r : Fin 1024) (j : Fin 2048) :
    blkScores x0 x1 (ix2 r j) = blkScore x0 x1 r j := by
  refine (scores_at _ _ r j).trans ?_
  unfold blkScore
  refine Finset.sum_congr rfl fun d _ => ?_
  rw [truncf_apply, truncf_apply, mulf_apply, shapeCast_1ab_ab_apply, shapeCast_1ab_ab_apply, broadcast_apply]
  rfl

/-- The weight of key j in row r of the block. -/
theorem weight_at (x0 : Vec Ideal S1x1024x64 .f32) (x1 : Vec Ideal S1x2048x64 .f32) (hφ : FKind.Formats .f32)
    (hacc : (0xFF800000#32 : BitVec 32) = 0xFF800000#32) (r : Fin 1024) (j : Fin 2048) :
    (truncf .bf16 (exp (subf (blkScores x0 x1) (broadcastTo S1024x2048 (shapeCast S1024x1 (multiReduction .maximumf [1] S1024 (blkScores x0 x1) 0xFF800000#32
        reduces_S1024x2048_S1024 hφ hacc) shapeCasts_S1024_S1024x1) broadcasts_S1024x1_S1024x2048))) bitsLt_bf16_f32
      : FVec Ideal S1024x2048 .bf16) (ix2 r j)
      = Ideal.exp (blkScore x0 x1 r j - Cert.Attn.rowMax (fun j' => blkScore x0 x1 r j')) := by
  refine (weight_of_scores (blkScores x0 x1) hφ hacc r j).trans ?_
  have hfun : (fun j' => blkScores x0 x1 (ix2 r j')) = fun j' => blkScore x0 x1 r j' := funext fun j' => blkScores_at x0 x1 r j'
  rw [blkScores_at, hfun]

/-- THE STORE at entry (0, r, e). -/
theorem pay_at (x0 : Vec Ideal S1x1024x64 .f32) (x1 : Vec Ideal S1x2048x64 .f32) (x2 : Vec Ideal S1x2048x65 .bf16) (r : Fin 1024) (e : Fin 64) :
    k0_pay1 (F := Ideal) x0 x1 x2 (ix3 (0 : Fin 1) r e)
      = payRow (fun j => blkScore x0 x1 r j) (fun j => x2 (ix3 (0 : Fin 1) j (⟨e.val, by omega⟩ : Fin 65)))
          (fun j => x2 (ix3 (0 : Fin 1) j (⟨64, by decide⟩ : Fin 65))) := by
  unfold k0_pay1
  refine (shapeCast_ab_1ab_apply _ shapeCasts_S1024x64_S1x1024x64 (0 : Fin 1) r e).trans ?_
  refine (divf_apply _ _ (ix2 r e)).trans ?_
  unfold payRow
  refine congrArg₂ Ideal.div ?_ ?_
  · refine (slice_num _ r e).trans ((pv_at _ _ r _).trans (Finset.sum_congr rfl fun j _ => ?_))
    exact congrArg₂ (· * ·) (weight_at x0 x1 _ _ r j) (shapeCast_1ab_ab_apply x2 shapeCasts_S1x2048x65_S2048x65 j _)
  · refine (bcast_feat _ r e).trans ((slice_den _ r).trans ((pv_at _ _ r _).trans (Finset.sum_congr rfl fun j _ => ?_)))
    exact congrArg₂ (· * ·) (weight_at x0 x1 _ _ r j) (shapeCast_1ab_ab_apply x2 shapeCasts_S1x2048x65_S2048x65 j _)

end Cert.Attn.Payload

end
-- ==== Proof.KernelHost.lean ====
/-
  What the region finds in its three input arrays, in terms of the program's arguments. The host lines before the
  region reshape q and k from [4, 16, 2048, 64] to [64, 2048, 64] (batch and head merged: row 16 b + h), and build the
  augmented value array [64, 2048, 65]: columns 0..63 are v times the key's mask entry read as a number, column 64 is
  that number itself.
-/
import proofs.«424999_j26216480374997_3_alg».proof.Proof.Gen.KernelIdeal.Frame
import proofs.«424999_j26216480374997_3_alg».proof.Proof.Spec
import Idealize.ShloMosaic.Lib.StableHlo.Run
import Idealize.ShloMosaic.Lib.ValueIdx
import Idealize.ShloMosaic.Lib.Pipeline.Value

noncomputable section

namespace Cert.Attn.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The four arguments as launched, at their literal types. -/
abbrev qArr (c : Dev nD) : FVec Ideal S4x16x2048x64 .f32 := m ((c : Thread nD τ).loc main_arg0)
abbrev kArr (c : Dev nD) : FVec Ideal S4x16x2048x64 .f32 := m ((c : Thread nD τ).loc main_arg1)
abbrev vArr (c : Dev nD) : FVec Ideal S4x16x2048x64 .f32 := m ((c : Thread nD τ).loc main_arg2)
abbrev maskArr (c : Dev nD) : IVec S4x2048 32 := m ((c : Thread nD τ).loc main_arg3)

/-- Row 16 b + h of the merged batch-and-head axis. -/
abbrev bh (b : Fin 4) (h : Fin 16) : Fin 64 := ⟨b.val * 16 + h.val, by omega⟩

/-! ## The reshaped q and k -/

theorem V_v0_eq (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem V_v1_eq (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl

/-- A [4, 16, 2048, 64] array reshaped to [64, 2048, 64] reads, at (16 b + h, r, d), the array at (b, h, r, d). -/
theorem merge_at (x : S4x16x2048x64.Idx → EReal) (b : Fin 4) (h : Fin 16) (r : Fin 2048) (d : Fin 64) :
    shapeCast S64x2048x64 x shapeCasts_S4x16x2048x64_S64x2048x64 (ix3 (bh b h) r d) = x (ix4 b h r d) :=
  shapeCast_apply x shapeCasts_S4x16x2048x64_S64x2048x64 _ _ (by
    rw [Shape.rowMajor_val_four, Shape.rowMajor_val_three]
    rfl)

theorem V_v0_at (c : Dev nD) (b : Fin 4) (h : Fin 16) (r : Fin 2048) (d : Fin 64) :
    (V m c main_v0 : S64x2048x64.Idx → EReal) (ix3 (bh b h) r d) = qArr m c (ix4 b h r d) := by
  rw [V_v0_eq]; exact merge_at _ b h r d

theorem V_v1_at (c : Dev nD) (b : Fin 4) (h : Fin 16) (r : Fin 2048) (d : Fin 64) :
    (V m c main_v1 : S64x2048x64.Idx → EReal) (ix3 (bh b h) r d) = kArr m c (ix4 b h r d) := by
  rw [V_v1_eq]; exact merge_at _ b h r d

/-! ## The augmented value array -/

/-- The mask read as numbers, as a [4, 1, 2048, 1] column per batch. -/
abbrev maskCol (x3 : IVec S4x2048 32) : FVec Ideal S4x1x2048x1 .f32 :=
  broadcastInDim S4x1x2048x1 ![0, 2] bcast_S4x2048_S4x1x2048x1_0_2 (sitofp (F := Ideal) .f32 x3 : FVec Ideal S4x2048 .f32)

theorem maskCol_at (x3 : IVec S4x2048 32) (b : Fin 4) (j : Fin 2048) :
    maskCol x3 (ix4 b (0 : Fin 1) j (0 : Fin 1)) = Cert.Attn.wt x3 b j :=
  (broadcastInDim_apply _ bcast_S4x2048_S4x1x2048x1_0_2 _ _ (ix2 b j) (fun a => match a with
    | ⟨0, _⟩ => by show b.val = if (4 : Nat) = 1 then 0 else b.val; rw [if_neg (by decide)]
    | ⟨1, _⟩ => by show j.val = if (2048 : Nat) = 1 then 0 else j.val; rw [if_neg (by decide)])).trans rfl

/-- The augmented values before the reshape: v times the mask column, with the mask column appended. -/
abbrev vaug4 (x2 : FVec Ideal S4x16x2048x64 .f32) (x3 : IVec S4x2048 32) : FVec Ideal S4x16x2048x65 .f32 :=
  concatenate S4x16x2048x65 3
    [⟨S4x16x2048x64, (mulf x2 (broadcastInDim S4x16x2048x64 ![0, 1, 2, 3] bcast_S4x1x2048x1_S4x16x2048x64_0_1_2_3 (maskCol x3) : FVec Ideal S4x16x2048x64 .f32) : FVec Ideal S4x16x2048x64 .f32)⟩,
     ⟨S4x16x2048x1, (broadcastInDim S4x16x2048x1 ![0, 1, 2, 3] bcast_S4x1x2048x1_S4x16x2048x1_0_1_2_3 (maskCol x3) : FVec Ideal S4x16x2048x1 .f32)⟩]
    concatenates_S4x16x2048x64_S4x16x2048x1_S4x16x2048x65_d3

theorem V_v9_eq (c : Dev nD) : (V m c main_v9 : S64x2048x65.Idx → EReal)
    = (truncf .bf16 (shapeCast S64x2048x65 (vaug4 (m ((c : Thread nD τ).loc main_arg2)) (m ((c : Thread nD τ).loc main_arg3)))
        shapeCasts_S4x16x2048x65_S64x2048x65 : FVec Ideal S64x2048x65 .f32) bitsLt_bf16_f32 : FVec Ideal S64x2048x65 .bf16) := by
  show StableHlo.after hostOps0 (fun b => m (c, b)) (Proc.devRef .tc main_v9) = _
  after_results
  rfl

/-- A data column of the augmented values: the value times the key's weight. -/
theorem vaug4_num (x2 : FVec Ideal S4x16x2048x64 .f32) (x3 : IVec S4x2048 32) (b : Fin 4) (h : Fin 16) (j : Fin 2048) (e : Fin 64) :
    vaug4 x2 x3 (ix4 b h j (⟨e.val, by omega⟩ : Fin 65)) = x2 (ix4 b h j e) * Cert.Attn.wt x3 b j := by
  refine (concatenate_pair_apply_left (3 : Fin S4x16x2048x65.rank) _ _ concatenates_S4x16x2048x64_S4x16x2048x1_S4x16x2048x65_d3 (ix4 b h j (⟨e.val, by omega⟩ : Fin 65)) rfl (ix4 b h j e)
    (fun a => match a with | ⟨0, _⟩ => rfl | ⟨1, _⟩ => rfl | ⟨2, _⟩ => rfl | ⟨3, _⟩ => rfl)).trans ?_
  refine (mulf_apply _ _ _).trans (congrArg (x2 (ix4 b h j e) * ·) ?_)
  refine (broadcastInDim_apply _ bcast_S4x1x2048x1_S4x16x2048x64_0_1_2_3 _ _ (ix4 b (0 : Fin 1) j (0 : Fin 1)) (fun a => match a with
    | ⟨0, _⟩ => by show b.val = if (4 : Nat) = 1 then 0 else b.val; rw [if_neg (by decide)]
    | ⟨1, _⟩ => by show 0 = if (1 : Nat) = 1 then 0 else h.val; rw [if_pos rfl]
    | ⟨2, _⟩ => by show j.val = if (2048 : Nat) = 1 then 0 else j.val; rw [if_neg (by decide)]
    | ⟨3, _⟩ => by show 0 = if (1 : Nat) = 1 then 0 else e.val; rw [if_pos rfl])).trans ?_
  exact maskCol_at x3 b j

/-- The last column of the augmented values: the key's weight. -/
theorem vaug4_den (x2 : FVec Ideal S4x16x2048x64 .f32) (x3 : IVec S4x2048 32) (b : Fin 4) (h : Fin 16) (j : Fin 2048) :
    vaug4 x2 x3 (ix4 b h j (⟨64, by decide⟩ : Fin 65)) = Cert.Attn.wt x3 b j := by
  refine (concatenate_pair_apply_right (3 : Fin S4x16x2048x65.rank) _ _ concatenates_S4x16x2048x64_S4x16x2048x1_S4x16x2048x65_d3 (ix4 b h j (⟨64, by decide⟩ : Fin 65)) rfl rfl (ix4 b h j (0 : Fin 1))
    (fun a ha => match a, ha with
      | ⟨0, _⟩, _ => rfl | ⟨1, _⟩, _ => rfl | ⟨2, _⟩, _ => rfl
      | ⟨3, _⟩, ha => absurd rfl ha) rfl).trans ?_
  refine (broadcastInDim_apply _ bcast_S4x1x2048x1_S4x16x2048x1_0_1_2_3 _ _ (ix4 b (0 : Fin 1) j (0 : Fin 1)) (fun a => match a with
    | ⟨0, _⟩ => by show b.val = if (4 : Nat) = 1 then 0 else b.val; rw [if_neg (by decide)]
    | ⟨1, _⟩ => by show 0 = if (1 : Nat) = 1 then 0 else h.val; rw [if_pos rfl]
    | ⟨2, _⟩ => by show j.val = if (2048 : Nat) = 1 then 0 else j.val; rw [if_neg (by decide)]
    | ⟨3, _⟩ => by show 0 = if (1 : Nat) = 1 then 0 else 0; rw [if_pos rfl])).trans ?_
  exact maskCol_at x3 b j

/-- A [4, 16, 2048, 65] array reshaped to [64, 2048, 65] reads, at (16 b + h, j, e), the array at (b, h, j, e). -/
theorem merge65_at (x : FVec Ideal S4x16x2048x65 .f32) (b : Fin 4) (h : Fin 16) (j : Fin 2048) (e : Fin 65) :
    shapeCast S64x2048x65 x shapeCasts_S4x16x2048x65_S64x2048x65 (ix3 (bh b h) j e) = x (ix4 b h j e) :=
  shapeCast_apply x shapeCasts_S4x16x2048x65_S64x2048x65 _ _ (by
    rw [Shape.rowMajor_val_four, Shape.rowMajor_val_three]
    rfl)

theorem V_v9_num (c : Dev nD) (b : Fin 4) (h : Fin 16) (j : Fin 2048) (e : Fin 64) :
    (V m c main_v9 : S64x2048x65.Idx → EReal) (ix3 (bh b h) j (⟨e.val, by omega⟩ : Fin 65))
      = vArr m c (ix4 b h j e) * Cert.Attn.wt (maskArr m c) b j := by
  rw [V_v9_eq]
  exact (truncf_apply (ψ := .bf16) _ bitsLt_bf16_f32 _).trans ((merge65_at _ b h j _).trans (vaug4_num _ _ b h j e))

theorem V_v9_den (c : Dev nD) (b : Fin 4) (h : Fin 16) (j : Fin 2048) :
    (V m c main_v9 : S64x2048x65.Idx → EReal) (ix3 (bh b h) j (⟨64, by decide⟩ : Fin 65))
      = Cert.Attn.wt (maskArr m c) b j := by
  rw [V_v9_eq]
  exact (truncf_apply (ψ := .bf16) _ bitsLt_bf16_f32 _).trans ((merge65_at _ b h j _).trans (vaug4_den _ _ b h j))

end Cert.Attn.Host

end
-- ==== Proof.KernelBlocks.lean ====
/-
  From what each grid point writes back to the program's result. Point t = (row 16 b + h of the merged axis, half qi of
  the queries) writes the [1, 1024, 64] block of the output array at block index (16 b + h, qi, 0); its entry (0, r, e) is
  the body's store there, which depends on the query block at the same block index and on the key and augmented-value
  blocks (16 b + h, 0, 0). So the output array [64, 2048, 64] ends as ONE function of the three arrays the region finds;
  the 128 blocks tile it; the host line after the region splits the merged axis back into batch and head.
-/
import proofs.«424999_j26216480374997_3_alg».proof.Proof.Gen.KernelIdeal.Frame
import proofs.«424999_j26216480374997_3_alg».proof.Proof.KernelPayload
import proofs.«424999_j26216480374997_3_alg».proof.Proof.KernelHost
import Idealize.ShloMosaic.Lib.Pipeline.Value
import Idealize.ShloMosaic.Lib.StableHlo.Run

noncomputable section

namespace Cert.Attn.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Attn.Host (bh qArr kArr vArr maskArr)

variable (m : (ℓ : Loc nD τ sig) → Buf (Elt Ideal) ℓ) (ρ : Dev nD → PrngReg)

theorem hz3 : (![0, 0, 0] : Fin 3 → Nat) = fun _ => 0 := funext fun a => by fin_cases a <;> rfl

/-- Entry (B, R, E) of the region's output array from the three arrays the region finds. -/
def g3 (Q K : FVec Ideal S64x2048x64 .f32) (VA : FVec Ideal S64x2048x65 .bf16) (B : Fin 64) (R : Fin 2048) (E : Fin 64) : EReal :=
  Payload.payRow (fun j => ∑ d : Fin 64, (Q (ix3 B R d) * Ideal.ofBits .f32 0x3E000000#32) * K (ix3 B j d))
    (fun j => VA (ix3 B j (⟨E.val, by omega⟩ : Fin 65))) (fun j => VA (ix3 B j (⟨64, by decide⟩ : Fin 65)))

/-- The region's output array as one function. -/
def G3 (Q K : FVec Ideal S64x2048x64 .f32) (VA : FVec Ideal S64x2048x65 .bf16) : FVec Ideal S64x2048x64 .f32 :=
  fun i => g3 Q K VA (i 0) (i 1) (i 2)

/-- The arrays the region finds, at their literal types. -/
abbrev Qv (c : Dev nD) : FVec Ideal S64x2048x64 .f32 := V m c main_v0
abbrev Kv (c : Dev nD) : FVec Ideal S64x2048x64 .f32 := V m c main_v1
abbrev VAv (c : Dev nD) : FVec Ideal S64x2048x65 .bf16 := V m c main_v9

/-- The printed index maps, decided over the 128 points: the query and output windows move together over (row, half),
    the key and value windows follow the row only. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 1 ∧ win0_3.index t (2 : Fin 3) = 0 :=
  (by decide +kernel : ∀ t : Fin grid0.N, _)

/-- Every block of the output array is some point's. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-! ## The input blocks read where the output's block says -/

theorem blk0_read (c : Dev nD) (t : Fin cfg0.N) (B : Fin 64) (R : Fin 2048) (r : Fin 1024) (d : Fin 64)
    (hB : B.val = win0_3.index t (0 : Fin 3)) (hR : R.val = win0_3.index t (1 : Fin 3) * 1024 + r.val) :
    iblk m c 0 t (ix3 (0 : Fin 1) r d) = Qv m c (ix3 B R d) := by
  obtain ⟨e0, e1, e2, -⟩ := idx_facts t
  show V m c main_v0 (((cfg0.win 0).blk t).view.emb (ix3 (0 : Fin 1) r d)) = V m c main_v0 (ix3 B R d)
  refine congrArg (V m c main_v0) (funext fun a => Fin.ext ?_)
  match a with
  | ⟨0, _⟩ => show win0_0.index t (0 : Fin 3) * 1 + 1 * 0 = B.val; omega
  | ⟨1, _⟩ => show win0_0.index t (1 : Fin 3) * 1024 + 1 * r.val = R.val; omega
  | ⟨2, _⟩ => show win0_0.index t (2 : Fin 3) * 64 + 1 * d.val = d.val; omega

theorem blk1_read (c : Dev nD) (t : Fin cfg0.N) (B : Fin 64) (j : Fin 2048) (d : Fin 64)
    (hB : B.val = win0_3.index t (0 : Fin 3)) :
    iblk m c 1 t (ix3 (0 : Fin 1) j d) = Kv m c (ix3 B j d) := by
  obtain ⟨-, -, -, e0, e1, e2, -⟩ := idx_facts t
  show V m c main_v1 (((cfg0.win 1).blk t).view.emb (ix3 (0 : Fin 1) j d)) = V m c main_v1 (ix3 B j d)
  refine congrArg (V m c main_v1) (funext fun a => Fin.ext ?_)
  match a with
  | ⟨0, _⟩ => show win0_1.index t (0 : Fin 3) * 1 + 1 * 0 = B.val; omega
  | ⟨1, _⟩ => show win0_1.index t (1 : Fin 3) * 2048 + 1 * j.val = j.val; omega
  | ⟨2, _⟩ => show win0_1.index t (2 : Fin 3) * 64 + 1 * d.val = d.val; omega

theorem blk2_read (c : Dev nD) (t : Fin cfg0.N) (B : Fin 64) (j : Fin 2048) (e : Fin 65)
    (hB : B.val = win0_3.index t (0 : Fin 3)) :
    iblk m c 2 t (ix3 (0 : Fin 1) j e) = VAv m c (ix3 B j e) := by
  obtain ⟨-, -, -, -, -, -, e0, e1, e2, -⟩ := idx_facts t
  show V m c main_v9 (((cfg0.win 2).blk t).view.emb (ix3 (0 : Fin 1) j e)) = V m c main_v9 (ix3 B j e)
  refine congrArg (V m c main_v9) (funext fun a => Fin.ext ?_)
  match a with
  | ⟨0, _⟩ => show win0_2.index t (0 : Fin 3) * 1 + 1 * 0 = B.val; omega
  | ⟨1, _⟩ => show win0_2.index t (1 : Fin 3) * 2048 + 1 * j.val = j.val; omega
  | ⟨2, _⟩ => show win0_2.index t (2 : Fin 3) * 65 + 1 * e.val = e.val; omega

/-! ## What a point writes back -/

/-- WHAT POINT t WRITES BACK is block t of G3 of the arrays the region finds. -/
theorem flushed_eq (c : Dev nD) (t : Fin cfg0.N) :
    (dats m 0 c).flushed 3 t = ((cfg0.win 3).blk t).view.read (Elt Ideal) (G3 (Qv m c) (Kv m c) (VAv m c)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3, View.ld_unit_zero (S := S1x2048x65) hz3]
  funext y
  obtain ⟨u, r, e, rfl⟩ : ∃ (u : Fin 1) (r : Fin 1024) (e : Fin 64), y = ix3 u r e := ⟨y 0, y 1, y 2, eq_ix3 y⟩
  obtain rfl : u = 0 := Subsingleton.elim _ _
  obtain ⟨-, -, -, -, -, -, -, -, -, f0, f1, f2⟩ := idx_facts t
  obtain ⟨B, hB⟩ : ∃ B : Fin 64, B.val = win0_3.index t (0 : Fin 3) := ⟨⟨win0_3.index t (0 : Fin 3), by omega⟩, rfl⟩
  obtain ⟨R, hR⟩ : ∃ R : Fin 2048, R.val = win0_3.index t (1 : Fin 3) * 1024 + r.val := ⟨⟨win0_3.index t (1 : Fin 3) * 1024 + r.val, by omega⟩, rfl⟩
  have hI : ((cfg0.win 3).blk t).view.emb (ix3 (0 : Fin 1) r e) = ix3 B R e :=
    funext fun a => Fin.ext (by
      match a with
      | ⟨0, _⟩ => show win0_3.index t (0 : Fin 3) * 1 + 1 * 0 = B.val; omega
      | ⟨1, _⟩ => show win0_3.index t (1 : Fin 3) * 1024 + 1 * r.val = R.val; omega
      | ⟨2, _⟩ => show win0_3.index t (2 : Fin 3) * 64 + 1 * e.val = e.val; omega)
  show k0_pay1 (F := Ideal) (iblk m c 0 t) (iblk m c 1 t) (iblk m c 2 t) (ix3 (0 : Fin 1) r e)
    = G3 (Qv m c) (Kv m c) (VAv m c) (((cfg0.win 3).blk t).view.emb (ix3 (0 : Fin 1) r e))
  rw [hI]
  refine (Payload.pay_at (iblk m c 0 t) (iblk m c 1 t) (iblk m c 2 t) r e).trans ?_
  show _ = g3 (Qv m c) (Kv m c) (VAv m c) B R e
  unfold g3
  have hs : (fun j => Payload.blkScore (iblk m c 0 t) (iblk m c 1 t) r j)
      = fun j => ∑ d : Fin 64, (Qv m c (ix3 B R d) * Ideal.ofBits .f32 0x3E000000#32) * Kv m c (ix3 B j d) :=
    funext fun j => Finset.sum_congr rfl fun d _ => by
      rw [blk0_read m c t B R r d hB hR, blk1_read m c t B j d hB]
  have ha : (fun j => iblk m c 2 t (ix3 (0 : Fin 1) j (⟨e.val, by omega⟩ : Fin 65)))
      = fun j => VAv m c (ix3 B j (⟨e.val, by omega⟩ : Fin 65)) :=
    funext fun j => blk2_read m c t B j _ hB
  have hw : (fun j => iblk m c 2 t (ix3 (0 : Fin 1) j (⟨64, by decide⟩ : Fin 65)))
      = fun j => VAv m c (ix3 B j (⟨64, by decide⟩ : Fin 65)) :=
    funext fun j => blk2_read m c t B j _ hB
  rw [hs, ha, hw]

/-! ## The blocks tile the output array -/

theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v10).slice (win0_3.rect t)).set ↔ _
  rw [View.set_slice_whole, Rect.mem_set_unit]
  exact Iff.rfl

theorem cover (i : S64x2048x64.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE OUTPUT ARRAY after the region. -/
theorem final (c : Dev nD) : (dats m 0 c).arrAt 3 cfg0.N = G3 (Qv m c) (Kv m c) (VAv m c) :=
  (dats m 0 c).arrAt_eq_of_cover 3 (G3 (Qv m c) (Kv m c) (VAv m c)) (fun t _ => flushed_eq m c t) (cover)

/-! ## In terms of the arguments -/

/-- Entry (16 b + h, r, e) of the output array is entry (b, h, r, e) of the augmented-value form of the arguments. -/
theorem G3_at (c : Dev nD) (b : Fin 4) (h : Fin 16) (r : Fin 2048) (e : Fin 64) :
    G3 (Qv m c) (Kv m c) (VAv m c) (ix3 (bh b h) r e) = Cert.Attn.gk (qArr m c) (kArr m c) (vArr m c) (maskArr m c) b h r e := by
  show g3 (Qv m c) (Kv m c) (VAv m c) (bh b h) r e = _
  unfold g3 Cert.Attn.gk
  rw [Payload.rowK_eq]
  unfold Cert.Attn.scoreK
  have hs : (fun j => ∑ d : Fin 64, (Qv m c (ix3 (bh b h) r d) * Ideal.ofBits .f32 0x3E000000#32) * Kv m c (ix3 (bh b h) j d))
      = fun j => ∑ d : Fin 64, (qArr m c (ix4 b h r d) * Ideal.ofBits .f32 0x3E000000#32) * kArr m c (ix4 b h j d) :=
    funext fun j => Finset.sum_congr rfl fun d _ => by
      rw [show Qv m c (ix3 (bh b h) r d) = qArr m c (ix4 b h r d) from Host.V_v0_at m c b h r d,
        show Kv m c (ix3 (bh b h) j d) = kArr m c (ix4 b h j d) from Host.V_v1_at m c b h j d]
  have ha : (fun j => VAv m c (ix3 (bh b h) j (⟨e.val, by omega⟩ : Fin 65)))
      = fun j => vArr m c (ix4 b h j e) * Cert.Attn.wt (maskArr m c) b j := funext fun j => Host.V_v9_num m c b h j e
  have hw : (fun j => VAv m c (ix3 (bh b h) j (⟨64, by decide⟩ : Fin 65)))
      = fun j => Cert.Attn.wt (maskArr m c) b j := funext fun j => Host.V_v9_den m c b h j
  rw [hs, ha, hw]

/-- The program's result: the output array with the merged axis split back into batch and head. -/
theorem tail_eq (c : Dev nD) :
    Pipeline.afterTail₀ cfgs (dats m) 0 (V0 m) [hostOps1] c main_v11 = Cert.Attn.Gk (qArr m c) (kArr m c) (vArr m c) (maskArr m c) := by
  unfold Pipeline.afterTail₀
  show StableHlo.after hostOps1 _ (Proc.devRef .tc main_v11) = _
  after_results
  funext i
  obtain ⟨b, h, r, e, rfl⟩ : ∃ (b : Fin 4) (h : Fin 16) (r : Fin 2048) (e : Fin 64), i = ix4 b h r e := ⟨i 0, i 1, i 2, i 3, eq_ix4 i⟩
  show shapeCast S4x16x2048x64 _ shapeCasts_S64x2048x64_S4x16x2048x64 (ix4 b h r e) = Cert.Attn.gk _ _ _ _ b h r e
  refine (shapeCast_apply _ shapeCasts_S64x2048x64_S4x16x2048x64 _ (ix3 (bh b h) r e) (by
    rw [Shape.rowMajor_val_three, Shape.rowMajor_val_four]; rfl)).trans ?_
  rw [show Pipeline.withArrays spec0 c (V0 m c) (fun w => (dats m 0 c).arrAt w cfg0.N) (Proc.devRef .tc main_v10) = (dats m 0 c).arrAt 3 cfg0.N from
    Pipeline.withArrays_arr spec0 launch0.win.arr_inj c _ _ 3, final]
  exact G3_at m c b h r e

/-! ## The run, read -/

/-- Every weakly fair execution of the idealized kernel's program ends with its result at the augmented-value form of
    the arguments and the arguments unchanged. -/
theorem run : θ_run defs (onTc (τ := τ) (main (F := Ideal))) ⟨m, fun _ => 0, ρ⟩ fun r => ∀ c : Dev nD,
      r.2.mem ((c.tc : Thread nD τ).loc main_v11) = Cert.Attn.Gk (qArr m c) (kArr m c) (vArr m c) (maskArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.Attn.Blocks

end
-- ==== Proof.lean ====
/-
  Masked softmax attention with the mask and the softmax denominator folded into an augmented value matrix, against
  the textbook form, over the extended reals.

  The kernel scales q by 1/8, takes scores against every key, subtracts the row maximum over ALL keys, exponentiates,
  and multiplies by [v · w | w], where w is the key's integer mask entry read as a number; the last column of the
  product is the denominator. The reference scales the finished scores by 1/8, fills -∞ where the mask is 0, takes the
  softmax over the keys and multiplies by v.

  Both are the same function of the arguments when q, k, v are finite, the mask takes the values 0 and 1 only, and every
  batch row of the mask keeps at least one key: a softmax is invariant under the shift subtracted inside the exponential,
  a key of weight 0 drops out of both sums exactly as exp(-∞) = 0 drops it, and the common factor cancels in the
  quotient. Outside that domain the two differ (a mask entry 2 doubles a key's weight in the kernel only; on a fully
  masked row both are 0/0 conventions that do not agree), so the precondition states it.

  The kernel's program is read off its frame run: each of the 128 grid points writes one [1024, 64] block of the output,
  the blocks tile it, and the host lines around the region only reshape. The reference's program is read stage by stage.
-/
import proofs.«424999_j26216480374997_3_alg».proof.Defs
import proofs.«424999_j26216480374997_3_alg».proof.Proof.Gen.Kernel
import proofs.«424999_j26216480374997_3_alg».proof.Proof.Gen.Kernel.Frame
import proofs.«424999_j26216480374997_3_alg».proof.Proof.Gen.KernelIdeal
import proofs.«424999_j26216480374997_3_alg».proof.Proof.Gen.KernelIdeal.Frame
import proofs.«424999_j26216480374997_3_alg».proof.Proof.Gen.ReferenceIdeal
import proofs.«424999_j26216480374997_3_alg».proof.Proof.Gen.ReferenceIdeal.Run
import proofs.«424999_j26216480374997_3_alg».proof.Proof.Gen.ReferenceIdeal.Read
import proofs.«424999_j26216480374997_3_alg».proof.Proof.Gen.Pre_finite_inputs
import proofs.«424999_j26216480374997_3_alg».proof.Proof.Spec
import proofs.«424999_j26216480374997_3_alg».proof.Proof.PreRead
import proofs.«424999_j26216480374997_3_alg».proof.Proof.RefValue
import proofs.«424999_j26216480374997_3_alg».proof.Proof.KernelBlocks
import Idealize.ShloMosaic.Adequacy
import Idealize.ShloMosaic.Init

noncomputable section

namespace Cert.Proof

open Idealize.ShloMosaic Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From agreeing arguments that meet the precondition, the kernel's program ends at the augmented-value form and the
    reference's at the textbook form of the same arguments: one function on that domain. -/
theorem algebraic : Cert.algebraic_KernelIdeal_ReferenceIdeal := by
  intro m ρ m' ρ' hpre hagree
  refine ⟨fun c => Cert.Attn.Gk (Cert.Attn.Host.qArr m c) (Cert.Attn.Host.kArr m c) (Cert.Attn.Host.vArr m c) (Cert.Attn.Host.maskArr m c),
    Cert.Attn.Blocks.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v18_eq _ _ _ _).trans ?_)
  rw [(hagree c).1, (hagree c).2.1, (hagree c).2.2.1, (hagree c).2.2.2]
  refine (Cert.Attn.RefValue.ref_eq_Gr _ _ _ _).trans ?_
  obtain ⟨hq, hk, hv, h01, hkept⟩ := Cert.Attn.PreRead.of_pre _ _ _ _ (hpre c)
  exact (Cert.Attn.Gk_eq_Gr _ _ _ _ hq hk hv h01 hkept).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
